-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x288 : Shape := ⟨4, ![8, 32, 32, 288]⟩
abbrev S288x64 : Shape := ⟨2, ![288, 64]⟩
abbrev S64 : Shape := ⟨1, ![64]⟩
abbrev S_ : Shape := ⟨0, ![]⟩

class Facts : Prop where
  bcast_S_S8x32x32x288 : S_.BroadcastsInDim S8x32x32x288 (![] : Fin 0 → Fin S8x32x32x288.rank)
  reducesTo_S8x32x32x288_S_d0_1_2_3 : S8x32x32x288.ReducesTo [0, 1, 2, 3] S_
  h_S_ : 0 < S_.numel
  bcast_S_S288x64 : S_.BroadcastsInDim S288x64 (![] : Fin 0 → Fin S288x64.rank)
  reducesTo_S288x64_S_d0_1 : S288x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x288 .f32) (main_arg1 : FVec F S288x64 .f32) (main_arg2 : FVec F S64 .f32) : IVec S_ 1 :=
  let main_v0 : FVec F S8x32x32x288 .f32 := Host.absf main_arg0
  let main_cst : FVec F S_ .f32 := constant S_ .f32 0x7F800000#32
  let main_v1 : FVec F S8x32x32x288 .f32 := broadcastInDim S8x32x32x288 ![] bcast_S_S8x32x32x288 main_cst
  let main_v2 : IVec S8x32x32x288 1 := cmpf .olt main_v0 main_v1
  let main_c : IVec S_ 1 := constantI S_ 1 1#1
  let main_v3 : IVec S_ 1 := (fun x v => Host.reduce IntOp.andi x v reducesTo_S8x32x32x288_S_d0_1_2_3 h_S_) main_v2 main_c
  let main_v4 : FVec F S288x64 .f32 := Host.absf main_arg1
  let main_cst_0 : FVec F S_ .f32 := constant S_ .f32 0x7F800000#32
  let main_v5 : FVec F S288x64 .f32 := broadcastInDim S288x64 ![] bcast_S_S288x64 main_cst_0
  let main_v6 : IVec S288x64 1 := cmpf .olt main_v4 main_v5
  let main_c_1 : IVec S_ 1 := constantI S_ 1 1#1
  let main_v7 : IVec S_ 1 := (fun x v => Host.reduce IntOp.andi x v reducesTo_S288x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x288 : Shape := ⟨4, ![8, 32, 32, 288]⟩
abbrev S288x64 : Shape := ⟨2, ![288, 64]⟩
abbrev S64 : Shape := ⟨1, ![64]⟩
abbrev S8x1024x288 : Shape := ⟨3, ![8, 1024, 288]⟩
abbrev S_ : Shape := ⟨0, ![]⟩
abbrev S8x1024x384 : Shape := ⟨3, ![8, 1024, 384]⟩
abbrev S384x64 : Shape := ⟨2, ![384, 64]⟩
abbrev S8x1024x64 : Shape := ⟨3, ![8, 1024, 64]⟩
abbrev S1x128x128 : Shape := ⟨3, ![1, 128, 128]⟩
abbrev S128x64 : Shape := ⟨2, ![128, 64]⟩
abbrev S1x128x64 : Shape := ⟨3, ![1, 128, 64]⟩
abbrev S128x128 : Shape := ⟨2, ![128, 128]⟩
abbrev S128x128x1 : Shape := ⟨3, ![128, 128, 1]⟩
abbrev S128x128x64 : Shape := ⟨3, ![128, 128, 64]⟩
abbrev S1x64 : Shape := ⟨2, ![1, 64]⟩

abbrev nBuf : Space → Nat
  | .hbm => 11
  | .vmem => 8
  | .smem => 0
  | _ => 0

abbrev bufTy : (tb : Table) → Fin (tcTables nBuf tb) → BufTy
  | .hbm, ⟨0, _⟩ => ⟨S8x32x32x288, .f32⟩
  | .hbm, ⟨1, _⟩ => ⟨S288x64, .f32⟩
  | .hbm, ⟨2, _⟩ => ⟨S64, .f32⟩
  | .hbm, ⟨3, _⟩ => ⟨S8x1024x288, .f32⟩
  | .hbm, ⟨4, _⟩ => ⟨S_, .i32⟩
  | .hbm, ⟨5, _⟩ => ⟨S_, .f32⟩
  | .hbm, ⟨6, _⟩ => ⟨S8x1024x384, .f32⟩
  | .hbm, ⟨7, _⟩ => ⟨S_, .i32⟩
  | .hbm, ⟨8, _⟩ => ⟨S_, .f32⟩
  | .hbm, ⟨9, _⟩ => ⟨S384x64, .f32⟩
  | .hbm, ⟨10, _⟩ => ⟨S8x1024x64, .f32⟩
  | .local _ .vmem, ⟨0, _⟩ => ⟨S1x128x128, .f32⟩
  | .local _ .vmem, ⟨1, _⟩ => ⟨S1x128x128, .f32⟩
  | .local _ .vmem, ⟨2, _⟩ => ⟨S128x64, .f32⟩
  | .local _ .vmem, ⟨3, _⟩ => ⟨S128x64, .f32⟩
  | .local _ .vmem, ⟨4, _⟩ => ⟨S64, .f32⟩
  | .local _ .vmem, ⟨5, _⟩ => ⟨S1x128x64, .f32⟩
  | .local _ .vmem, ⟨6, _⟩ => ⟨S1x128x64, .f32⟩
  | .local _ .vmem, ⟨7, _⟩ => ⟨S128x64, .f32⟩
  | _, _ => ⟨S8x32x32x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 8, 3], ![false, false, false]⟩

def k0_cond2 (i : grid0.Coords) : BitVec 1 :=
  let arg2 : BitVec 32 := BitVec.ofNat 32 (i 2).val
  let c2_i32 : BitVec 32 := 2#32
  let v19 : BitVec 1 := Scalar.cmpi .eq arg2 c2_i32
  let v20 : BitVec 32 := Scalar.extui v19
  let c0_i32_9 : BitVec 32 := 0#32
  let v21 : BitVec 1 := Scalar.cmpi .ne v20 c0_i32_9
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x32x32x288_S8x1024x288 : S8x32x32x288.ShapeCasts S8x1024x288
  pads_S8x1024x288_S8x1024x384_000_000_0960 : S8x1024x288.Pads (![0, 0, 0] : Fin 3 → Nat) ![0, 0, 96] ![0, 0, 0] S8x1024x384
  h_S_ : 0 < S_.numel
  pads_S288x64_S384x64_0960_000 : S288x64.Pads (![0, 0] : Fin 2 → Nat) ![96, 0] ![0, 0] S384x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S128x128x1 : S128x128.ShapeCasts S128x128x1
  shapeCasts_S128x64_S1x128x64 : S128x64.ShapeCasts S1x128x64
  broadcasts_S128x128x1_S128x128x64 : S128x128x1.Broadcasts S128x128x64
  broadcasts_S1x128x64_S128x128x64 : S1x128x64.Broadcasts S128x128x64
  reduces_S128x128x64_S128x64 : S128x128x64.Reduces [1] S128x64
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x1024x384.size a
  hwx0_0 : ∀ i : grid0.Coords, EltTy.bits .f32 = 32 ∨ (Rect.block (s := S8x1024x384) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S384x64.size a
  hwx0_1 : ∀ i : grid0.Coords, EltTy.bits .f32 = 32 ∨ (Rect.block (s := S384x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S8x1024x64.size a
  hwx0_3 : ∀ i : grid0.Coords, EltTy.bits .f32 = 32 ∨ (Rect.block (s := S8x1024x64) S1x128x64.size (cc0_transform_3 i) (hinb0_3 i)).WholeWords (EltTy.packing .f32)

variable [Facts₀]

abbrev win0_0 : Pipeline.Window sig grid0 :=
  Pipeline.Window.ofSpec (Memref.whole main_v1) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x32x32x288 : Shape := ⟨4, ![8, 32, 32, 288]⟩
abbrev S288x64 : Shape := ⟨2, ![288, 64]⟩
abbrev S64 : Shape := ⟨1, ![64]⟩
abbrev S8x1024x288 : Shape := ⟨3, ![8, 1024, 288]⟩
abbrev S8x1024x288x1 : Shape := ⟨4, ![8, 1024, 288, 1]⟩
abbrev S1x1x288x64 : Shape := ⟨4, ![1, 1, 288, 64]⟩
abbrev S8x1024x288x64 : Shape := ⟨4, ![8, 1024, 288, 64]⟩
abbrev S_ : Shape := ⟨0, ![]⟩
abbrev S8x1024x64 : Shape := ⟨3, ![8, 1024, 64]⟩
abbrev S1x1x64 : Shape := ⟨3, ![1, 1, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x32x32x288, .f32⟩
  | .hbm, ⟨1, _⟩ => ⟨S288x64, .f32⟩
  | .hbm, ⟨2, _⟩ => ⟨S64, .f32⟩
  | .hbm, ⟨3, _⟩ => ⟨S8x1024x288, .f32⟩
  | .hbm, ⟨4, _⟩ => ⟨S8x1024x288x1, .f32⟩
  | .hbm, ⟨5, _⟩ => ⟨S1x1x288x64, .f32⟩
  | .hbm, ⟨6, _⟩ => ⟨S8x1024x288x64, .f32⟩
  | .hbm, ⟨7, _⟩ => ⟨S8x1024x288x64, .f32⟩
  | .hbm, ⟨8, _⟩ => ⟨S8x1024x288x64, .f32⟩
  | .hbm, ⟨9, _⟩ => ⟨S8x1024x288x64, .f32⟩
  | .hbm, ⟨10, _⟩ => ⟨S_, .f32⟩
  | .hbm, ⟨11, _⟩ => ⟨S8x1024x64, .f32⟩
  | .hbm, ⟨12, _⟩ => ⟨S1x1x64, .f32⟩
  | .hbm, ⟨13, _⟩ => ⟨S8x1024x64, .f32⟩
  | .hbm, ⟨14, _⟩ => ⟨S8x1024x64, .f32⟩
  | _, _ => ⟨S8x32x32x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S8x32x32x288_S8x1024x288 : S8x32x32x288.ShapeCasts S8x1024x288
  bcast_S8x1024x288_S8x1024x288x1_0_1_2 : S8x1024x288.BroadcastsInDim S8x1024x288x1 (![0, 1, 2] : Fin 3 → Fin S8x1024x288x1.rank)
  bcast_S288x64_S1x1x288x64_2_3 : S288x64.BroadcastsInDim S1x1x288x64 (![2, 3] : Fin 2 → Fin S1x1x288x64.rank)
  bcast_S8x1024x288x1_S8x1024x288x64_0_1_2_3 : S8x1024x288x1.BroadcastsInDim S8x1024x288x64 (![0, 1, 2, 3] : Fin 4 → Fin S8x1024x288x64.rank)
  bcast_S1x1x288x64_S8x1024x288x64_0_1_2_3 : S1x1x288x64.BroadcastsInDim S8x1024x288x64 (![0, 1, 2, 3] : Fin 4 → Fin S8x1024x288x64.rank)
  reducesTo_S8x1024x288x64_S8x1024x64_d2 : S8x1024x288x64.ReducesTo [2] S8x1024x64
  h_S_ : 0 < S_.numel
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)

variable [Facts₀]

class Facts : Prop extends Facts₀ where

variable [Facts]
-- ==== Proof.Spec.lean ====
/-
  What both programs compute, as one function of the arrays. With `xr` the input `x` read as [8, 1024, 288] (batch, row,
  channel), `w` of [288, 64] (channel, output) and `b` of [64]:

      out (β, n, o) = (0 + ∑ over the 288 channels k of |xr (β, n, k) - w (k, o)|) + b o

  over the extended reals: a difference, an absolute value `max t (-t)`, a sum from zero, a bias. No operation here
  needs its operands finite for the two programs to agree, since both apply the same operations to the same entries and
  differ only in how the sum is grouped and in zero terms the kernel's padding adds.
-/
import Idealize.ShloMosaic.PureOps.Ideal
import Idealize.ShloMosaic.PureOps.Ideal.Laws
import Idealize.ShloMosaic.Lib.ValueIdx

noncomputable section

open scoped BigOperators

namespace Cert.L1

open Idealize.ShloMosaic Idealize.ShloMosaic.ValueIdx

/-- One term: `|a - b|` on the extended reals, spelt with the operations both programs print. -/
def dist (a b : Ideal .f32) : Ideal .f32 := FloatOps.absf (FloatOps.subf a b)

/-- A padded place contributes nothing: `|0 - 0| = 0`. -/
theorem dist_zero : dist 0 0 = 0 := by
  show max ((0 : EReal) - 0) (-((0 : EReal) - 0)) = 0
  simp

/-- The result array, entry by entry. -/
def out (xr : FVec Ideal ⟨3, ![8, 1024, 288]⟩ .f32) (w : FVec Ideal ⟨2, ![288, 64]⟩ .f32) (b : FVec Ideal ⟨1, ![64]⟩ .f32) :
    FVec Ideal ⟨3, ![8, 1024, 64]⟩ .f32 :=
  fun i => (0 + ∑ k : Fin 288, dist (xr (ix3 (i 0) (i 1) k)) (w (ix2 k (i 2)))) + b (ix1 (i 2))

end Cert.L1

end
-- ==== Proof.TileSum.lean ====
/-
  The one law of arithmetic that joins the two programs. For a fixed output entry the reference adds 288 terms
  `|x - w|` from zero in one sum. The kernel pads the summed axis with zeros to 384 = 3 * 128, and adds the terms
  tile by tile: a running value that starts at zero takes the sum of the first 128 terms, then of the next 128, then
  of the last 128, of which the final 96 are `|0 - 0| = 0`. In a commutative monoid (the extended reals under
  addition are one: no finiteness is used) both are the same value.
-/
import Mathlib.Algebra.BigOperators.Fin
import Mathlib.Algebra.BigOperators.Group.Finset.Basic

open scoped BigOperators

namespace Cert.TileSum

variable {M : Type*} [AddCommMonoid M]

/-- Over a sequence `a` whose terms 288 to 383 vanish: three consecutive runs of 128 terms accumulated from zero are
    the first 288 terms summed from zero. -/
theorem three_runs (a : ℕ → M) (hz : ∀ k, 288 ≤ k → k < 384 → a k = 0) :
    ((0 + ∑ k : Fin 128, a k.val) + ∑ k : Fin 128, a (128 + k.val)) + ∑ k : Fin 128, a (256 + k.val)
      = 0 + ∑ k : Fin 288, a k.val := by
  have e0 : ∑ k : Fin 128, a k.val = ∑ k ∈ Finset.range 128, a k := Fin.sum_univ_eq_sum_range (fun k => a k) 128
  have e1 : ∑ k : Fin 128, a (128 + k.val) = ∑ k ∈ Finset.range 128, a (128 + k) :=
    Fin.sum_univ_eq_sum_range (fun k => a (128 + k)) 128
  have e2 : ∑ k : Fin 128, a (256 + k.val) = ∑ k ∈ Finset.range 128, a (256 + k) :=
    Fin.sum_univ_eq_sum_range (fun k => a (256 + k)) 128
  have e3 : ∑ k : Fin 288, a k.val = ∑ k ∈ Finset.range 288, a k := Fin.sum_univ_eq_sum_range (fun k => a k) 288
  have h1 : ∑ k ∈ Finset.range 256, a k = ∑ k ∈ Finset.range 128, a k + ∑ k ∈ Finset.range 128, a (128 + k) :=
    Finset.sum_range_add a 128 128
  have h2 : ∑ k ∈ Finset.range 384, a k = ∑ k ∈ Finset.range 256, a k + ∑ k ∈ Finset.range 128, a (256 + k) :=
    Finset.sum_range_add a 256 128
  have h3 : ∑ k ∈ Finset.range 384, a k = ∑ k ∈ Finset.range 288, a k + ∑ k ∈ Finset.range 96, a (288 + k) :=
    Finset.sum_range_add a 288 96
  have h4 : ∑ k ∈ Finset.range 96, a (288 + k) = 0 :=
    Finset.sum_eq_zero fun k hk => hz _ (by omega) (by have := Finset.mem_range.mp hk; omega)
  rw [e0, e1, e2, e3, zero_add, zero_add, ← h1, ← h2, h3, h4, add_zero]

/-- A family on 384 places continued by zero to every natural number. -/
def ext0 (f : Fin 384 → M) : ℕ → M := fun j => if h : j < 384 then f ⟨j, h⟩ else 0

theorem ext0_of_lt (f : Fin 384 → M) {j : ℕ} (h : j < 384) : ext0 f j = f ⟨j, h⟩ := dif_pos h

/-- The same over a padded family `f` on 384 places and the unpadded family `g` on 288: `f` agrees with `g` on the
    first 288 places and vanishes on the rest. -/
theorem three_tiles (f : Fin 384 → M) (g : Fin 288 → M)
    (hfg : ∀ (k : Fin 288), f ⟨k.val, by omega⟩ = g k)
    (hz : ∀ k : Fin 384, 288 ≤ k.val → f k = 0) :
    ((0 + ∑ k : Fin 128, f ⟨k.val, by omega⟩) + ∑ k : Fin 128, f ⟨128 + k.val, by omega⟩)
        + ∑ k : Fin 128, f ⟨256 + k.val, by omega⟩
      = 0 + ∑ k : Fin 288, g k := by
  have key := three_runs (ext0 f) (fun k h1 h2 => by rw [ext0_of_lt f h2]; exact hz ⟨k, h2⟩ h1)
  have s0 : ∑ k : Fin 128, f ⟨k.val, by omega⟩ = ∑ k : Fin 128, ext0 f k.val :=
    Finset.sum_congr rfl fun k _ => (ext0_of_lt f (show k.val < 384 by omega)).symm
  have s1 : ∑ k : Fin 128, f ⟨128 + k.val, by omega⟩ = ∑ k : Fin 128, ext0 f (128 + k.val) :=
    Finset.sum_congr rfl fun k _ => (ext0_of_lt f (show 128 + k.val < 384 by omega)).symm
  have s2 : ∑ k : Fin 128, f ⟨256 + k.val, by omega⟩ = ∑ k : Fin 128, ext0 f (256 + k.val) :=
    Finset.sum_congr rfl fun k _ => (ext0_of_lt f (show 256 + k.val < 384 by omega)).symm
  have s3 : ∑ k : Fin 288, g k = ∑ k : Fin 288, ext0 f k.val :=
    Finset.sum_congr rfl fun k _ => ((ext0_of_lt f (show k.val < 384 by omega)).trans (hfg k)).symm
  rw [s0, s1, s2, s3]
  exact key

end Cert.TileSum
-- ==== Proof.Pieces.lean ====
/-
  What one run of the kernel body leaves behind, case by case, as a value of what it loaded. The body has three cases
  by the position `cc` of the point on the grid's last axis (the channel tiles):
    first tile (cc = 0):   the running block is reset to the zero block and then receives the tile's contribution;
    middle tile (cc = 1):  the running block, as the point before left it, receives the tile's contribution;
    last tile (cc = 2):    the same, and the output block is stored: the new running block plus the bias row.
  Each store covers its whole buffer, so what a buffer ends holding is its last store's value; a load of the running block
  after a store in the same run reads that store's value.
-/
import proofs.«170779_j48490180771967_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Middle tile: the running block `xs0` becomes the update of `xs0` by the blocks `x0` (of x) and `x1` (of w). -/
theorem scr_B (c : Dev nD) (i : grid0.Coords) (arg3 : Memref sig .tc .vmem S1x128x128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S1x128x64 .f32) (harg6 : arg6.IsWhole) (arg7 : Memref sig .tc .vmem S128x64 .f32) (harg7 : arg7.IsWhole) (hc0 : ¬cond0_0 i) (hc1 : ¬cond0_1 i)
    (x0 : Vec F S1x128x128 .f32) (x1 : Vec F S128x64 .f32) (x2 : Vec F S64 .f32) (xs0 : Vec F S128x64 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg7.read_unread,
    View.ld_unit_zero (S := S1x128x128) hz3, View.ld_unit_zero (S := S128x64) hz2]

/-- Last tile, the running block: updated as at a middle tile. -/
theorem scr_C (c : Dev nD) (i : grid0.Coords) (arg3 : Memref sig .tc .vmem S1x128x128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S1x128x64 .f32) (harg6 : arg6.IsWhole) (arg7 : Memref sig .tc .vmem S128x64 .f32) (harg7 : arg7.IsWhole) (hc0 : ¬cond0_0 i) (hc1 : cond0_1 i)
    (x0 : Vec F S1x128x128 .f32) (x1 : Vec F S128x64 .f32) (x2 : Vec F S64 .f32) (xs0 : Vec F S128x64 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg7.read_unread,
    View.ld_unit_zero (S := S1x128x128) hz3, View.ld_unit_zero (S := S128x64) hz2]

/-- Last tile, the output block: the bias row `x2` added to the running block just updated. -/
theorem out_C (c : Dev nD) (i : grid0.Coords) (arg3 : Memref sig .tc .vmem S1x128x128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S1x128x64 .f32) (harg6 : arg6.IsWhole) (arg7 : Memref sig .tc .vmem S128x64 .f32) (harg7 : arg7.IsWhole) (hc0 : ¬cond0_0 i) (hc1 : cond0_1 i)
    (x0 : Vec F S1x128x128 .f32) (x1 : Vec F S128x64 .f32) (x2 : Vec F S64 .f32) (xs0 : Vec F S128x64 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg3.read_unread, harg4.read_unread, harg5.read_unread, harg7.read_unread,
    View.readCov_unit_zero (S := S128x64) _ hz2,
    View.ld_unit_zero (S := S1x128x128) hz3, View.ld_unit_zero (S := S128x64) hz2, View.ld_unit_zero (S := S64) hz1]

/-- First tile: the running block is reset (the zero block `k0_pay1`) and then updated; what it held before is not read. -/
theorem scr_A (c : Dev nD) (i : grid0.Coords) (arg3 : Memref sig .tc .vmem S1x128x128 .f32) (harg3 : arg3.IsWhole) (arg4 : Memref sig .tc .vmem S128x64 .f32) (harg4 : arg4.IsWhole) (arg5 : Memref sig .tc .vmem S64 .f32) (harg5 : arg5.IsWhole) (arg6 : Memref sig .tc .vmem S1x128x64 .f32) (harg6 : arg6.IsWhole) (arg7 : Memref sig .tc .vmem S128x64 .f32) (harg7 : arg7.IsWhole) (hc0 : cond0_0 i) (hc1 : ¬cond0_1 i)
    (x0 : Vec F S1x128x128 .f32) (x1 : Vec F S128x64 .f32) (x2 : Vec F S64 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S128x64) hz2, View.readCov_unit_zero (S := S128x64) _ hz2]
  simp only [View.readAt_eq_ld, harg3.read_unread, harg4.read_unread,
    View.ld_unit_zero (S := S1x128x128) hz3, View.ld_unit_zero (S := S128x64) hz2]

end Cert.KernelIdeal.Pieces

end
-- ==== Proof.Payload.lean ====
/-
  The three values the kernel body stores, read at one entry, at the ideal instance.
    the reset block:    every entry is 0;
    the update:         entry (r, o) of the running block `acc` becomes `acc (r, o) + ∑ over the tile's 128 channels k of
                        |xb (0, r, k) - wb (k, o)|`, with `xb` the [1, 128, 128] block of x (row r, channel k) and `wb` the
                        [128, 64] block of w: the body broadcasts both to [128, 128, 64], subtracts, takes absolute values
                        and sums over the middle (channel) axis;
    the output block:   entry (0, r, o) is `acc (r, o) + bias o`.
-/
import proofs.«170779_j48490180771967_1_alg».proof.Proof.Gen.KernelIdeal.Skeleton
import proofs.«170779_j48490180771967_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset block is zero everywhere. -/
theorem reset_apply (j : S128x64.Idx) : k0_pay1 (F := Ideal) j = 0 := by
  unfold k0_pay1
  refine (congrFun (shapeCast_self _ _) j).trans ?_
  show Ideal.ofBits .f32 0x00000000#32 = 0
  exact Ideal.ofBits_zero_f32

/-- The block of x broadcast along the outputs: entry (r, k, o) is the block's (0, r, k). -/
theorem xside_apply (v3 : Vec Ideal S1x128x128 .f32) (r k : Fin 128) (o : Fin 64) (j : S128x128x64.Idx)
    (hj : j = ix3 r k o) :
    broadcastTo S128x128x64 (shapeCast S128x128x1 (shapeCast S128x128 v3 Facts₀.shapeCasts_S1x128x128_S128x128)
      Facts₀.shapeCasts_S128x128_S128x128x1) Facts₀.broadcasts_S128x128x1_S128x128x64 j = v3 (ix3 0 r k) := by
  subst hj
  refine (broadcastTo_apply _ _ (ix3 r k o) (ix3 r k (0 : Fin 1)) (fun a => ?_)).trans ?_
  · match a with
    | ⟨0, _⟩ => rfl
    | ⟨1, _⟩ => rfl
    | ⟨2, _⟩ => rfl
  refine (shapeCast_apply _ _ (ix3 r k (0 : Fin 1)) (ix2 r k) ?_).trans ?_
  · rw [Shape.rowMajor_val_two, Shape.rowMajor_val_three]
    show r.val * 128 + k.val = (r.val * 128 + k.val) * 1 + 0
    omega
  refine shapeCast_apply _ _ (ix2 r k) (ix3 (0 : Fin 1) r k) ?_
  rw [Shape.rowMajor_val_two, Shape.rowMajor_val_three]
  show (0 * 128 + r.val) * 128 + k.val = r.val * 128 + k.val
  omega

/-- The block of w broadcast along the rows: entry (r, k, o) is the block's (k, o). -/
theorem wside_apply (v5 : Vec Ideal S128x64 .f32) (r k : Fin 128) (o : Fin 64) (j : S128x128x64.Idx)
    (hj : j = ix3 r k o) :
    broadcastTo S128x128x64 (shapeCast S1x128x64 (shapeCast S128x64 v5 Facts₀.shapeCasts_S128x64_S128x64)
      Facts₀.shapeCasts_S128x64_S1x128x64) Facts₀.broadcasts_S1x128x64_S128x128x64 j = v5 (ix2 k o) := by
  subst hj
  refine (broadcastTo_apply _ _ (ix3 r k o) (ix3 (0 : Fin 1) k o) (fun a => ?_)).trans ?_
  · match a with
    | ⟨0, _⟩ => rfl
    | ⟨1, _⟩ => rfl
    | ⟨2, _⟩ => rfl
  refine (shapeCast_apply _ _ (ix3 (0 : Fin 1) k o) (ix2 k o) ?_).trans ?_
  · rw [Shape.rowMajor_val_two, Shape.rowMajor_val_three]
    show k.val * 64 + o.val = (0 * 128 + k.val) * 64 + o.val
    omega
  exact congrFun (shapeCast_self _ _) (ix2 k o)

/-- The update at entry (r, o). -/
theorem update_apply (v3 : Vec Ideal S1x128x128 .f32) (v5 : Vec Ideal S128x64 .f32) (v12 : Vec Ideal S128x64 .f32)
    (r : Fin 128) (o : Fin 64) :
    k0_pay2 v3 v5 v12 (ix2 r o) = v12 (ix2 r o) + ∑ k : Fin 128, L1.dist (v3 (ix3 0 r k)) (v5 (ix2 k o)) := by
  unfold k0_pay2
  refine (congrFun (shapeCast_self _ _) (ix2 r o)).trans ?_
  refine congrArg (v12 (ix2 r o) + ·) ?_
  refine (Ideal.multiReduction_add_single _ _ Facts₀.reduces_S128x128x64_S128x64 (.inl rfl) rfl (ix2 r o)).trans ?_
  refine Finset.sum_congr rfl fun k _ => ?_
  have hl : (Facts₀.reduces_S128x128x64_S128x64).lift (ix2 r o) k = ix3 r k o := by
    funext a
    match a with
    | ⟨0, _⟩ => rfl
    | ⟨1, _⟩ => rfl
    | ⟨2, _⟩ => rfl
  show FloatOps.absf (FloatOps.subf _ _) = FloatOps.absf (FloatOps.subf _ _)
  exact congrArg₂ (fun a b => FloatOps.absf (FloatOps.subf a b)) (xside_apply v3 r k o _ hl) (wside_apply v5 r k o _ hl)

/-- The output block at entry (0, r, o). -/
theorem outblk_apply (v22 : Vec Ideal S64 .f32) (v23 : Vec Ideal S128x64 .f32) (r : Fin 128) (o : Fin 64) :
    k0_pay3 v22 v23 (ix3 (0 : Fin 1) r o) = v23 (ix2 r o) + v22 (ix1 o) := by
  unfold k0_pay3
  refine (shapeCast_apply _ _ (ix3 (0 : Fin 1) r o) (ix2 r o) ?_).trans ?_
  · rw [Shape.rowMajor_val_two, Shape.rowMajor_val_three]
    show r.val * 64 + o.val = (0 * 128 + r.val) * 64 + o.val
    omega
  refine congrArg (v23 (ix2 r o) + ·) ?_
  refine (broadcastTo_apply _ _ (ix2 r o) (ix2 (0 : Fin 1) o) (fun a => ?_)).trans ?_
  · match a with
    | ⟨0, _⟩ => rfl
    | ⟨1, _⟩ => rfl
  refine shapeCast_apply _ _ (ix2 (0 : Fin 1) o) (ix1 o) ?_
  rw [Shape.rowMajor_val_one, Shape.rowMajor_val_two]
  show o.val = 0 * 64 + o.val
  omega

end Cert.KernelIdeal.Payload

end
-- ==== Proof.Arrays.lean ====
/-
  What the kernel's region finds in its operand arrays, and what each grid point's blocks read of them.
  Before the region the host part of the program reads `x` as [8, 1024, 288] and pads its channel axis with 96 zeros to
  [8, 1024, 384], and pads `w`'s channel axis the same way to [384, 64]; the padding value is the integer 0 converted,
  the real 0. So a padded array holds the unpadded entry at a channel below 288 and 0 from channel 288 on.
  The grid is 8 x 8 x 3 (batch β, row tile, channel tile), its points numbered row-major: point t has β = t / 24, row
  tile t / 3 mod 8 and channel tile t mod 3. At point t the block of x is rows 128·(t / 3 mod 8) + r and channels
  128·(t mod 3) + k of batch β; the block of w is channels 128·(t mod 3) + k, all 64 outputs; the bias block is the
  whole bias.
-/
import proofs.«170779_j48490180771967_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ)

/-! ## The arrays -/

/-- `x` read as [8, 1024, 288]. -/
abbrev xr (c : Dev nD) : FVec Ideal S8x1024x288 .f32 :=
  shapeCast S8x1024x288 (m ((c : Thread nD τ).loc main_arg0)) Facts₀.shapeCasts_S8x32x32x288_S8x1024x288
/-- `w` as launched. -/
abbrev wr (c : Dev nD) : FVec Ideal S288x64 .f32 := m ((c : Thread nD τ).loc main_arg1)
/-- The bias as launched. -/
abbrev br (c : Dev nD) : FVec Ideal S64 .f32 := m ((c : Thread nD τ).loc main_arg2)
/-- The padding value: the integer zero converted. -/
abbrev zf : FVec Ideal S_ .f32 := sitofp .f32 (constantI S_ 32 0#32)

/-- The padded x, the padded w and the bias, as the region finds them. -/
abbrev xp (c : Dev nD) : FVec Ideal S8x1024x384 .f32 := V m c main_v1
abbrev wp (c : Dev nD) : FVec Ideal S384x64 .f32 := V m c main_v2
abbrev bp (c : Dev nD) : FVec Ideal S64 .f32 := V m c main_arg2

theorem zf_first : zf (Shape.Idx.first Facts₀.h_S_) = 0 := sitofp_zero

theorem xp_eq (c : Dev nD) : xp m c = pad S8x1024x384 ![0, 0, 0] ![0, 0, 96] ![0, 0, 0] (xr m c) zf
    Facts₀.pads_S8x1024x288_S8x1024x384_000_000_0960 Facts₀.h_S_ := by
  show V m c main_v1 = _
  dsimp only [Gen.V]
  simp only [hostOps0, hostOps0_1, hostOps0_2, hostOps0_3, List.flatten_cons, List.flatten_nil, List.append_nil, List.cons_append, List.nil_append]
  after_results
  rfl

theorem wp_eq (c : Dev nD) : wp m c = pad S384x64 ![0, 0] ![96, 0] ![0, 0] (wr m c) zf
    Facts₀.pads_S288x64_S384x64_0960_000 Facts₀.h_S_ := by
  show V m c main_v2 = _
  dsimp only [Gen.V]
  simp only [hostOps0, hostOps0_1, hostOps0_2, hostOps0_3, List.flatten_cons, List.flatten_nil, List.append_nil, List.cons_append, List.nil_append]
  after_results
  rfl

theorem bp_eq (c : Dev nD) : bp m c = br m c := V_main_arg2 m c

/-- Below channel 288 the padded x is x. -/
theorem xp_inside (c : Dev nD) (β : Fin 8) (n : Fin 1024) (k : Fin 288) :
    xp m c (ix3 β n (⟨k.val, by omega⟩ : Fin 384)) = xr m c (ix3 β n k) := by
  rw [xp_eq]
  refine pad_apply_of_inside _ _ _ _ _ _ _ _ (ix3 β n k) (fun a => ?_)
  match a with
  | ⟨0, _⟩ => show β.val = 0 + β.val * (0 + 1); omega
  | ⟨1, _⟩ => show n.val = 0 + n.val * (0 + 1); omega
  | ⟨2, _⟩ => show k.val = 0 + k.val * (0 + 1); omega

/-- From channel 288 on the padded x is 0. -/
theorem xp_outside (c : Dev nD) (β : Fin 8) (n : Fin 1024) (j : Fin 384) (hj : 288 ≤ j.val) :
    xp m c (ix3 β n j) = 0 := by
  rw [xp_eq]
  refine (pad_apply_of_not_inside _ _ _ _ _ _ _ (ix3 β n j) (2 : Fin 3) (fun h => ?_)).trans zf_first
  have h3 : (j.val - 0) / (0 + 1) < 288 := h.2.2
  omega

/-- Below channel 288 the padded w is w. -/
theorem wp_inside (c : Dev nD) (k : Fin 288) (o : Fin 64) :
    wp m c (ix2 (⟨k.val, by omega⟩ : Fin 384) o) = wr m c (ix2 k o) := by
  rw [wp_eq]
  refine pad_apply_of_inside _ _ _ _ _ _ _ _ (ix2 k o) (fun a => ?_)
  match a with
  | ⟨0, _⟩ => show k.val = 0 + k.val * (0 + 1); omega
  | ⟨1, _⟩ => show o.val = 0 + o.val * (0 + 1); omega

/-- From channel 288 on the padded w is 0. -/
theorem wp_outside (c : Dev nD) (j : Fin 384) (o : Fin 64) (hj : 288 ≤ j.val) :
    wp m c (ix2 j o) = 0 := by
  rw [wp_eq]
  refine (pad_apply_of_not_inside _ _ _ _ _ _ _ (ix2 j o) (0 : Fin 2) (fun h => ?_)).trans zf_first
  have h3 : (j.val - 0) / (0 + 1) < 288 := h.2.2
  omega

/-! ## The grid's points and the blocks -/

theorem lt192 (t : Fin cfg0.N) : t.val < 192 := lt_of_lt_of_eq t.isLt (show cfg0.N = 192 from N_0)

/-- Point t's batch, its row r of the row tile, its channel k of the channel tile. -/
def tb (t : Fin cfg0.N) : Fin 8 := ⟨t.val / 24, by have := lt192 t; omega⟩
def tn (t : Fin cfg0.N) (r : Fin 128) : Fin 1024 := ⟨128 * (t.val / 3 % 8) + r.val, by omega⟩
def tk (t : Fin cfg0.N) (k : Fin 128) : Fin 384 := ⟨128 * (t.val % 3) + k.val, by omega⟩

/-- The windows' block indices at point t, decided over the 192 points. -/
theorem idx_x : ∀ t : Fin cfg0.N, win0_0.index t 0 = t.val / 24 ∧ win0_0.index t 1 = t.val / 3 % 8 ∧ win0_0.index t 2 = t.val % 3 :=
  (by decide +kernel : ∀ t : Fin grid0.N, win0_0.index t 0 = t.val / 24 ∧ win0_0.index t 1 = t.val / 3 % 8 ∧ win0_0.index t 2 = t.val % 3)
theorem idx_w : ∀ t : Fin cfg0.N, win0_1.index t 0 = t.val % 3 ∧ win0_1.index t 1 = 0 :=
  (by decide +kernel : ∀ t : Fin grid0.N, win0_1.index t 0 = t.val % 3 ∧ win0_1.index t 1 = 0)
theorem idx_b : ∀ t : Fin cfg0.N, win0_2.index t 0 = 0 :=
  (by decide +kernel : ∀ t : Fin grid0.N, win0_2.index t 0 = 0)
theorem idx_o : ∀ t : Fin cfg0.N, win0_3.index t 0 = t.val / 24 ∧ win0_3.index t 1 = t.val / 3 % 8 ∧ win0_3.index t 2 = 0 :=
  (by decide +kernel : ∀ t : Fin grid0.N, win0_3.index t 0 = t.val / 24 ∧ win0_3.index t 1 = t.val / 3 % 8 ∧ win0_3.index t 2 = 0)

/-- The input blocks at point t, at their literal types. -/
abbrev xblk (c : Dev nD) (t : Fin cfg0.N) : Vec Ideal S1x128x128 .f32 := iblk m c 0 t
abbrev wblk (c : Dev nD) (t : Fin cfg0.N) : Vec Ideal S128x64 .f32 := iblk m c 1 t
abbrev bblk (c : Dev nD) (t : Fin cfg0.N) : Vec Ideal S64 .f32 := iblk m c 2 t

theorem xblk_apply (c : Dev nD) (t : Fin cfg0.N) (r k : Fin 128) :
    xblk m c t (ix3 (0 : Fin 1) r k) = xp m c (ix3 (tb t) (tn t r) (tk t k)) := by
  unfold xblk iblk
  rw [View.read_apply]
  show V m c main_v1 _ = V m c main_v1 _
  refine congrArg (V m c main_v1) (funext fun a => Fin.ext ?_)
  have hi := idx_x t
  match a with
  | ⟨0, _⟩ => show win0_0.index t 0 * 1 + 1 * 0 = t.val / 24; rw [hi.1]; omega
  | ⟨1, _⟩ => show win0_0.index t 1 * 128 + 1 * r.val = 128 * (t.val / 3 % 8) + r.val; rw [hi.2.1]; omega
  | ⟨2, _⟩ => show win0_0.index t 2 * 128 + 1 * k.val = 128 * (t.val % 3) + k.val; rw [hi.2.2]; omega

theorem wblk_apply (c : Dev nD) (t : Fin cfg0.N) (k : Fin 128) (o : Fin 64) :
    wblk m c t (ix2 k o) = wp m c (ix2 (tk t k) o) := by
  unfold wblk iblk
  rw [View.read_apply]
  show V m c main_v2 _ = V m c main_v2 _
  refine congrArg (V m c main_v2) (funext fun a => Fin.ext ?_)
  have hi := idx_w t
  match a with
  | ⟨0, _⟩ => show win0_1.index t 0 * 128 + 1 * k.val = 128 * (t.val % 3) + k.val; rw [hi.1]; omega
  | ⟨1, _⟩ => show win0_1.index t 1 * 64 + 1 * o.val = o.val; rw [hi.2]; omega

theorem bblk_apply (c : Dev nD) (t : Fin cfg0.N) (o : Fin 64) :
    bblk m c t (ix1 o) = br m c (ix1 o) := by
  unfold bblk iblk
  rw [View.read_apply]
  show V m c main_arg2 _ = _
  rw [V_main_arg2]
  refine congrArg (m ((c : Thread nD τ).loc main_arg2)) (funext fun a => Fin.ext ?_)
  have hi := idx_b t
  match a with
  | ⟨0, _⟩ => show win0_2.index t 0 * 64 + 1 * o.val = o.val; rw [hi]; omega

end Cert.KernelIdeal.Arrays

end
-- ==== Proof.KernelValue.lean ====
/-
  The kernel's result array at the ideal instance is the specification.
  Fix an output entry (β, n, o), with n = 128·ν + r in row tile ν. Three consecutive grid points t - 2, t - 1, t visit it,
  one per channel tile, t = (8·β + ν)·3 + 2 the last. Each adds to the running block's entry (r, o) the tile's
  contribution: the sum over the tile's 128 channels of |x - w| read in the padded arrays. The first of the three starts
  from the zero block; the last adds the bias and stores the output block, which alone is written back. So the entry
  ends at ((0 + T₀) + T₁) + T₂ + b o with Tⱼ the sum over channels 128·j ‥ 128·j + 127, and since the padded arrays
  hold the unpadded entries below channel 288 and zeros above, that is (0 + the sum over the 288 channels) + b o.
  The 64 output blocks of a batch and the 8 batches tile the [8, 1024, 64] array, so every entry is so written.
-/
import proofs.«170779_j48490180771967_1_alg».proof.Proof.Gen.KernelIdeal.Value
import proofs.«170779_j48490180771967_1_alg».proof.Proof.Spec
import proofs.«170779_j48490180771967_1_alg».proof.Proof.TileSum
import proofs.«170779_j48490180771967_1_alg».proof.Proof.Pieces
import proofs.«170779_j48490180771967_1_alg».proof.Proof.Payload
import proofs.«170779_j48490180771967_1_alg».proof.Proof.Arrays

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Arrays

variable (m : (ℓ : Loc nD τ sig) → Buf (Elt Ideal) ℓ) (ρ : Dev nD → PrngReg)

/-! ## The running block, point by point -/

/-- The contribution of point t's channel tile to entry (r, o) of the running block. -/
def tile (c : Dev nD) (t : Fin cfg0.N) (r : Fin 128) (o : Fin 64) : Ideal .f32 :=
  ∑ k : Fin 128, L1.dist (xblk m c t (ix3 (0 : Fin 1) r k)) (wblk m c t (ix2 k o))

/-- The running block after the point at position n. -/
abbrev scr (c : Dev nD) (n : ℕ) (hn : n < cfg0.N) : Vec Ideal S128x64 .f32 := (outsAt0 m c n hn).2

/-- At a first channel tile the running block restarts: zero plus the tile's contribution. -/
theorem scr_first (c : Dev nD) (n : ℕ) (hn : n < cfg0.N) (h0 : n % 3 = 0) (r : Fin 128) (o : Fin 64) :
    scr m c n hn (ix2 r o) = 0 + tile m c ⟨n, hn⟩ r o := by
  have h1 : ¬n % 3 = 2 := by omega
  show (outsAt0 m c n hn).2 (ix2 r o) = _
  rw [outsAt0_A m c ⟨n, hn⟩ h0 h1]
  dsimp only
  refine (congrFun (Pieces.scr_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (xblk m c ⟨n, hn⟩) (wblk m c ⟨n, hn⟩) (bblk m c ⟨n, hn⟩)) (ix2 r o)).trans ?_
  rw [Payload.update_apply, Payload.reset_apply]
  rfl

/-- At a later channel tile it receives the tile's contribution over what the point before left. -/
theorem scr_next (c : Dev nD) (n : ℕ) (hn : n < cfg0.N) (h0 : ¬n % 3 = 0) (r : Fin 128) (o : Fin 64) :
    scr m c n hn (ix2 r o)
      = scr m c (n - 1) (Nat.lt_of_le_of_lt (Nat.sub_le _ _) hn) (ix2 r o) + tile m c ⟨n, hn⟩ r o := by
  show (outsAt0 m c n hn).2 (ix2 r o) = _
  by_cases h1 : n % 3 = 2
  · rw [outsAt0_C m c ⟨n, hn⟩ h0 h1]
    dsimp only
    refine (congrFun (Pieces.scr_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (xblk m c ⟨n, hn⟩) (wblk m c ⟨n, hn⟩) (bblk m c ⟨n, hn⟩) (scr m c (n - 1) (Nat.lt_of_le_of_lt (Nat.sub_le _ _) hn))) (ix2 r o)).trans ?_
    rw [Payload.update_apply]
    rfl
  · rw [outsAt0_B m c ⟨n, hn⟩ h0 h1]
    dsimp only
    refine (congrFun (Pieces.scr_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (xblk m c ⟨n, hn⟩) (wblk m c ⟨n, hn⟩) (bblk m c ⟨n, hn⟩) (scr m c (n - 1) (Nat.lt_of_le_of_lt (Nat.sub_le _ _) hn))) (ix2 r o)).trans ?_
    rw [Payload.update_apply]
    rfl

/-- At a last channel tile the output block is the updated running block plus the bias. -/
theorem out_last (c : Dev nD) (n : ℕ) (hn : n < cfg0.N) (h2 : n % 3 = 2) (r : Fin 128) (o : Fin 64) :
    (outsAt0 m c n hn).1 (ix3 (0 : Fin 1) r o)
      = (scr m c (n - 1) (Nat.lt_of_le_of_lt (Nat.sub_le _ _) hn) (ix2 r o) + tile m c ⟨n, hn⟩ r o) + br m c (ix1 o) := by
  have h0 : ¬n % 3 = 0 := by omega
  rw [outsAt0_C m c ⟨n, hn⟩ h0 h2]
  dsimp only
  refine (congrFun (Pieces.out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h2) (xblk m c ⟨n, hn⟩) (wblk m c ⟨n, hn⟩) (bblk m c ⟨n, hn⟩) (scr m c (n - 1) (Nat.lt_of_le_of_lt (Nat.sub_le _ _) hn))) (ix3 (0 : Fin 1) r o)).trans ?_
  rw [Payload.outblk_apply, Payload.update_apply, bblk_apply]
  rfl

/-! ## The three tiles of an entry are its 288 channels -/

/-- The padded terms of output entry (β, ν, o): place j holds |x - w| read in the padded arrays at channel j. -/
def pterm (c : Dev nD) (β : Fin 8) (ν : Fin 1024) (o : Fin 64) : Fin 384 → Ideal .f32 :=
  fun j => L1.dist (xp m c (ix3 β ν j)) (wp m c (ix2 j o))

theorem tile_eq (c : Dev nD) (t : Fin cfg0.N) (r : Fin 128) (o : Fin 64) :
    tile m c t r o = ∑ k : Fin 128, pterm m c (tb t) (tn t r) o (tk t k) := by
  unfold tile pterm
  refine Finset.sum_congr rfl fun k _ => ?_
  rw [xblk_apply, wblk_apply]

theorem pterm_inside (c : Dev nD) (β : Fin 8) (ν : Fin 1024) (o : Fin 64) (k : Fin 288) :
    pterm m c β ν o ⟨k.val, by omega⟩ = L1.dist (xr m c (ix3 β ν k)) (wr m c (ix2 k o)) := by
  unfold pterm
  rw [xp_inside, wp_inside]

theorem pterm_outside (c : Dev nD) (β : Fin 8) (ν : Fin 1024) (o : Fin 64) (j : Fin 384) (hj : 288 ≤ j.val) :
    pterm m c β ν o j = 0 := by
  unfold pterm
  rw [xp_outside m c β ν j hj, wp_outside m c j o hj]
  exact L1.dist_zero

/-- What the kernel's array ends holding: the specification of x read as [8, 1024, 288], w and the bias. -/
abbrev G (c : Dev nD) : FVec Ideal S8x1024x64 .f32 := L1.out (xr m c) (wr m c) (br m c)

/-- The output block a last-tile point stores is the specification on its rows. -/
theorem out_entry (c : Dev nD) (n : ℕ) (hn : n < cfg0.N) (h2 : n % 3 = 2) (r : Fin 128) (o : Fin 64) :
    (outsAt0 m c n hn).1 (ix3 (0 : Fin 1) r o) = G m c (ix3 (tb ⟨n, hn⟩) (tn ⟨n, hn⟩ r) o) := by
  have hN : n < 192 := lt192 ⟨n, hn⟩
  have p1 : n - 1 < cfg0.N := Nat.lt_of_le_of_lt (Nat.sub_le _ _) hn
  have p0 : n - 1 - 1 < cfg0.N := Nat.lt_of_le_of_lt (Nat.sub_le _ _) p1
  rw [out_last m c n hn h2 r o, scr_next m c (n - 1) p1 (by omega) r o, scr_first m c (n - 1 - 1) p0 (by omega) r o]
  have hb0 : tb ⟨n - 1 - 1, p0⟩ = tb ⟨n, hn⟩ := Fin.ext (by show (n - 1 - 1) / 24 = n / 24; omega)
  have hb1 : tb ⟨n - 1, p1⟩ = tb ⟨n, hn⟩ := Fin.ext (by show (n - 1) / 24 = n / 24; omega)
  have hn0 : tn ⟨n - 1 - 1, p0⟩ r = tn ⟨n, hn⟩ r :=
    Fin.ext (by show 128 * ((n - 1 - 1) / 3 % 8) + r.val = 128 * (n / 3 % 8) + r.val; omega)
  have hn1 : tn ⟨n - 1, p1⟩ r = tn ⟨n, hn⟩ r :=
    Fin.ext (by show 128 * ((n - 1) / 3 % 8) + r.val = 128 * (n / 3 % 8) + r.val; omega)
  have hk0 : ∀ k : Fin 128, tk ⟨n - 1 - 1, p0⟩ k = ⟨k.val, by omega⟩ :=
    fun k => Fin.ext (by show 128 * ((n - 1 - 1) % 3) + k.val = k.val; omega)
  have hk1 : ∀ k : Fin 128, tk ⟨n - 1, p1⟩ k = ⟨128 + k.val, by omega⟩ :=
    fun k => Fin.ext (by show 128 * ((n - 1) % 3) + k.val = 128 + k.val; omega)
  have hk2 : ∀ k : Fin 128, tk ⟨n, hn⟩ k = ⟨256 + k.val, by omega⟩ :=
    fun k => Fin.ext (by show 128 * (n % 3) + k.val = 256 + k.val; omega)
  rw [tile_eq, tile_eq, tile_eq, hb0, hb1, hn0, hn1]
  simp only [hk0, hk1, hk2]
  exact congrArg (· + br m c (ix1 o))
    (TileSum.three_tiles (pterm m c (tb ⟨n, hn⟩) (tn ⟨n, hn⟩ r) o)
      (fun k => L1.dist (xr m c (ix3 (tb ⟨n, hn⟩) (tn ⟨n, hn⟩ r) k)) (wr m c (ix2 k o)))
      (fun k => pterm_inside m c _ _ o k) (fun j hj => pterm_outside m c _ _ o j hj))

/-! ## From the output blocks to the array -/

/-- What a writing-back point writes is its block of the specification. -/
theorem flushed_eq (c : Dev nD) (t : Fin cfg0.N) (hf : (cfg0.win 3).flush t = true) :
    (dats m 0 c).flushed 3 t = ((cfg0.win 3).blk t).view.read (Elt Ideal) (G m c) := by
  have h2 : t.val % 3 = 2 := (flush0_3 t).mp hf
  rw [Value.flushed3]
  have key : ∀ j : S1x128x64.Idx, (outsAt0 m c t.val t.isLt).1 j = ((cfg0.win 3).blk t).view.read (Elt Ideal) (G m c) j := by
    intro j
    obtain ⟨a, r, o, rfl⟩ : ∃ (a : Fin 1) (r : Fin 128) (o : Fin 64), j = ix3 a r o := ⟨j 0, j 1, j 2, eq_ix3 j⟩
    obtain rfl : a = 0 := Fin.ext (by omega)
    rw [View.read_apply, out_entry m c t.val t.isLt h2 r o]
    refine congrArg (G m c) (funext fun b => Fin.ext ?_)
    have hi := idx_o t
    match b with
    | ⟨0, _⟩ => show t.val / 24 = win0_3.index t 0 * 1 + 1 * 0; rw [hi.1]; omega
    | ⟨1, _⟩ => show 128 * (t.val / 3 % 8) + r.val = win0_3.index t 1 * 128 + 1 * r.val; rw [hi.2.1]; omega
    | ⟨2, _⟩ => show o.val = win0_3.index t 2 * 64 + 1 * o.val; rw [hi.2.2]; omega
  exact funext fun j => key j

/-- An entry of the array is in point t's output block iff each coordinate is in the block's range. -/
theorem mem_blk (t : Fin cfg0.N) (i : S8x1024x64.Idx) :
    i ∈ ((cfg0.win 3).blk t).view.set ↔ ∀ a : Fin 3, win0_3.index t a * S1x128x64.size a ≤ (i a).val ∧ (i a).val < win0_3.index t a * S1x128x64.size a + S1x128x64.size a := by
  show i ∈ ((View.whole main_v3).slice (win0_3.rect t)).set ↔ _
  rw [View.set_slice_whole, Rect.mem_set_unit]
  exact Iff.rfl

/-- Every entry lies in the output block of the last-tile point of its batch and row tile. -/
theorem cover (i : S8x1024x64.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 64 := (i 2).isLt
  have hN : cfg0.N = 192 := N_0
  obtain ⟨t, ht⟩ : ∃ t : Fin cfg0.N, t.val = ((i 0).val * 8 + (i 1).val / 128) * 3 + 2 :=
    ⟨⟨((i 0).val * 8 + (i 1).val / 128) * 3 + 2, by omega⟩, rfl⟩
  refine ⟨t, (flush0_3 t).mpr (by omega), ?_⟩
  rw [mem_blk]
  obtain ⟨e0, e1, e2⟩ := idx_o t
  intro a
  match a with
  | ⟨0, _⟩ => show win0_3.index t 0 * 1 ≤ (i 0).val ∧ (i 0).val < win0_3.index t 0 * 1 + 1; rw [e0]; omega
  | ⟨1, _⟩ => show win0_3.index t 1 * 128 ≤ (i 1).val ∧ (i 1).val < win0_3.index t 1 * 128 + 128; rw [e1]; omega
  | ⟨2, _⟩ => show win0_3.index t 2 * 64 ≤ (i 2).val ∧ (i 2).val < win0_3.index t 2 * 64 + 64; rw [e2]; omega

/-- The result array after the run is the specification. -/
theorem final (c : Dev nD) : (dats m 0 c).arrAt 3 cfg0.N = G m c :=
  (dats m 0 c).arrAt_eq_of_cover 3 (G m c) (flushed_eq m c) cover

/-- The kernel's run: it ends with the result array at the specification and the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference's result is the specification. Its program broadcasts `x` (read as [8, 1024, 288]) along a new last
  axis and `w` along two new leading axes to [8, 1024, 288, 64], subtracts, takes absolute values, sums over axis 2
  (the 288 channels) from the constant zero and adds the bias broadcast over the first two axes. Read at one entry
  (β, n, o) that is `(0 + ∑ k, |xr (β, n, k) - w (k, o)|) + b o`.
-/
import proofs.«170779_j48490180771967_1_alg».proof.Proof.Gen.ReferenceIdeal.Read
import proofs.«170779_j48490180771967_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- One term of the reference's sum: the two broadcasts read back to `xr (β, n, k)` and `w (k, o)`. -/
theorem term_apply (x0 : FVec Ideal S8x32x32x288 .f32) (x1 : FVec Ideal S288x64 .f32) (i : S8x1024x64.Idx) (k : Fin 288) :
    val_main_v6 (F := Ideal) x0 x1 (idx_main_v7 i k)
      = L1.dist (val_main_v0 (F := Ideal) x0 (ix3 (i 0) (i 1) k)) (x1 (ix2 k (i 2))) := by
  rw [val_main_v6_apply, val_main_v5_apply, val_main_v3_apply, val_main_v1_apply, val_main_v4_apply, val_main_v2_apply]
  have e1 : idx_main_v1 (idx_main_v3 (idx_main_v7 i k)) = ix3 (i 0) (i 1) k :=
    funext fun a => Fin.ext (by match a with | ⟨0, _⟩ => rfl | ⟨1, _⟩ => rfl | ⟨2, _⟩ => rfl)
  have e2 : idx_main_v2 (idx_main_v4 (idx_main_v7 i k)) = ix2 k (i 2) :=
    funext fun a => Fin.ext (by match a with | ⟨0, _⟩ => rfl | ⟨1, _⟩ => rfl)
  rw [e1, e2]
  rfl

/-- The reference's result array is the specification of `x` read as [8, 1024, 288], `w` and `b`. -/
theorem result_eq (x0 : FVec Ideal S8x32x32x288 .f32) (x1 : FVec Ideal S288x64 .f32) (x2 : FVec Ideal S64 .f32) :
    val_main_v10 (F := Ideal) x0 x1 x2 = L1.out (val_main_v0 (F := Ideal) x0) x1 x2 := by
  funext i
  rw [val_main_v10_apply, val_main_v7_apply, val_main_v9_apply, val_main_v8_apply]
  have eb : idx_main_v8 (idx_main_v9 i) = ix1 (i 2) :=
    funext fun a => Fin.ext (by match a with | ⟨0, _⟩ => rfl)
  rw [eb, Finset.sum_congr rfl (fun k _ => term_apply x0 x1 i k), val_main_cst_apply]
  show (Ideal.ofBits .f32 0x00000000#32 + _) + _ = _
  rw [Ideal.ofBits_zero_f32]
  rfl

end Cert.ReferenceIdeal.RefValue

end
-- ==== Proof.lean ====
/-
  The certificate of an L1-distance layer: `out[β, n, o] = ∑ over channels c of |x[β, n, c] - w[c, o]| + b[o]`, with `x` of
  [8, 32, 32, 288] read as [8, 1024, 288], `w` of [288, 64] and `b` of [64].

  The reference forms all differences at once, takes absolute values, sums over the 288 channels from zero and adds
  the bias. The kernel pads the channel axis of `x` and of `w` with zeros to 384 and runs a grid of 8 batches x 8 row
  tiles x 3 channel tiles: a running [128, 64] block is reset at a first channel tile, receives at every tile the sum
  over the tile's 128 channels of |x - w|, and at the last tile is stored, plus the bias, as the output block.

  Over the extended reals the two agree entry by entry: the kernel's ((0 + T₀) + T₁) + T₂ over the three tiles is the
  one sum over 384 padded channels regrouped, the 96 padded channels contribute |0 - 0| = 0 each, and addition on the
  extended reals is commutative and associative with 0 neutral, so no finiteness of the inputs is used. The ideal
  pass rewrote nothing, so the idealized kernel is the kernel's own text and that conjunct is trivial. The three frame
  conjuncts are the generated frames for the two kernels and the generated run of the reference.
-/
import proofs.«170779_j48490180771967_1_alg».proof.Defs
import proofs.«170779_j48490180771967_1_alg».proof.Proof.Gen.Kernel
import proofs.«170779_j48490180771967_1_alg».proof.Proof.Gen.Kernel.Skeleton
import proofs.«170779_j48490180771967_1_alg».proof.Proof.Gen.Kernel.Launch
import proofs.«170779_j48490180771967_1_alg».proof.Proof.Gen.Kernel.Points
import proofs.«170779_j48490180771967_1_alg».proof.Proof.Gen.Kernel.Frame
import proofs.«170779_j48490180771967_1_alg».proof.Proof.Gen.KernelIdeal
import proofs.«170779_j48490180771967_1_alg».proof.Proof.Gen.KernelIdeal.Skeleton
import proofs.«170779_j48490180771967_1_alg».proof.Proof.Gen.KernelIdeal.Launch
import proofs.«170779_j48490180771967_1_alg».proof.Proof.Gen.KernelIdeal.Points
import proofs.«170779_j48490180771967_1_alg».proof.Proof.Gen.KernelIdeal.Frame
import proofs.«170779_j48490180771967_1_alg».proof.Proof.Gen.ReferenceIdeal
import proofs.«170779_j48490180771967_1_alg».proof.Proof.Gen.Pre_finite_inputs
import proofs.«170779_j48490180771967_1_alg».proof.Proof.Gen.KernelIdeal.Value
import proofs.«170779_j48490180771967_1_alg».proof.Proof.Gen.ReferenceIdeal.Run
import proofs.«170779_j48490180771967_1_alg».proof.Proof.Gen.ReferenceIdeal.Read
import proofs.«170779_j48490180771967_1_alg».proof.Proof.KernelValue
import proofs.«170779_j48490180771967_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the specification of arguments that agree. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
